-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x512 : Shape := ⟨3, ![128, 1024, 512]⟩
abbrev S1024x512 : Shape := ⟨2, ![1024, 512]⟩
abbrev S128x512 : Shape := ⟨2, ![128, 512]⟩
abbrev S_ : Shape := ⟨0, ![]⟩

class Facts : Prop where
  bcast_S_S128x1024x512 : S_.BroadcastsInDim S128x1024x512 (![] : Fin 0 → Fin S128x1024x512.rank)
  reducesTo_S128x1024x512_S_d0_1_2 : S128x1024x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  main_v18

def fn {F : FTy → Type} [FloatOps F] (main_arg0 : FVec F S128x1024x512 .f32) (main_arg1 : FVec F S1024x512 .f32) (main_arg2 : FVec F S128x512 .f32) (main_arg3 : FVec F S128x512 .f32) : IVec S_ 1 :=
  let main_v0 : FVec F S128x1024x512 .f32 := Host.absf main_arg0
  let main_cst : FVec F S_ .f32 := constant S_ .f32 0x7F800000#32
  let main_v1 : FVec F S128x1024x512 .f32 := broadcastInDim S128x1024x512 ![] bcast_S_S128x1024x512 main_cst
  let main_v2 : IVec S128x1024x512 1 := cmpf .olt main_v0 main_v1
  let main_c : IVec S_ 1 := constantI S_ 1 1#1
  let main_v3 : IVec S_ 1 := (fun x v => Host.reduce IntOp.andi x v reducesTo_S128x1024x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_v13 main_v16
-- ==== Kernel.lean ====
abbrev S128x1024x512 : Shape := ⟨3, ![128, 1024, 512]⟩
abbrev S1024x512 : Shape := ⟨2, ![1024, 512]⟩
abbrev S128x512 : Shape := ⟨2, ![128, 512]⟩
abbrev S32x256x512 : Shape := ⟨3, ![32, 256, 512]⟩
abbrev S256x512 : Shape := ⟨2, ![256, 512]⟩
abbrev S32x512 : Shape := ⟨2, ![32, 512]⟩
abbrev S1x256x512 : Shape := ⟨3, ![1, 256, 512]⟩

abbrev nBuf : Space → Nat
  | .hbm => 6
  | .vmem => 13
  | .smem => 0
  | _ => 0

abbrev bufTy : (tb : Table) → Fin (tcTables nBuf tb) → BufTy
  | .hbm, ⟨0, _⟩ => ⟨S128x1024x512, .f32⟩
  | .hbm, ⟨1, _⟩ => ⟨S1024x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .local _ .vmem, ⟨0, _⟩ => ⟨S32x256x512, .f32⟩
  | .local _ .vmem, ⟨1, _⟩ => ⟨S32x256x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | _, _ => ⟨S128x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_9 : BitVec 32 := 0#32
  let v16 : BitVec 1 := Scalar.cmpi .ne v15 c0_i32_9
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x256x512_S32x256x512_0_0_0 : ∀ a, (![0, 0, 0] : Fin 3 → Nat) a + S32x256x512.size a ≤ S32x256x512.size a
  h_S32x256x512 : 0 < S32x256x512.numel
  inb_S256x512_S256x512_0_0 : ∀ a, (![0, 0] : Fin 2 → Nat) a + S256x512.size a ≤ S256x512.size a
  h_S256x512 : 0 < S256x512.numel
  shapeCasts_S256x512_S1x256x512 : S256x512.ShapeCasts S1x256x512
  broadcasts_S1x256x512_S32x256x512 : S1x256x512.Broadcasts S32x256x512
  reduces_S32x256x512_S32x512 : S32x256x512.Reduces [1] S32x512
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x512.size a ≤ S128x1024x512.size a
  hwx0_0 : ∀ i : grid0.Coords, EltTy.bits .f32 = 32 ∨ (Rect.block (s := S128x1024x512) S32x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S1024x512.size a
  hwx0_1 : ∀ i : grid0.Coords, EltTy.bits .f32 = 32 ∨ (Rect.block (s := S1024x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S128x512.size a
  hwx0_2 : ∀ i : grid0.Coords, EltTy.bits .f32 = 32 ∨ (Rect.block (s := S128x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S128x512.size a
  hwx0_3 : ∀ i : grid0.Coords, EltTy.bits .f32 = 32 ∨ (Rect.block (s := S128x512) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S128x512.size a
  hwx0_4 : ∀ i : grid0.Coords, EltTy.bits .f32 = 32 ∨ (Rect.block (s := S128x512) S32x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x512.size a ≤ S128x512.size a
  hwx0_5 : ∀ i : grid0.Coords, EltTy.bits .f32 = 32 ∨ (Rect.block (s := S128x512) S32x512.size (cc0_transform_5 i) (hinb0_5 i)).WholeWords (EltTy.packing .f32)

variable [Facts₀]

abbrev win0_0 : Pipeline.Window sig grid0 :=
  Pipeline.Window.ofSpec (Memref.whole main_arg0) S32x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S32x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S32x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S128x1024x512 : Shape := ⟨3, ![128, 1024, 512]⟩
abbrev S1024x512 : Shape := ⟨2, ![1024, 512]⟩
abbrev S128x512 : Shape := ⟨2, ![128, 512]⟩
abbrev S_ : Shape := ⟨0, ![]⟩
abbrev S1x1024x512 : Shape := ⟨3, ![1, 1024, 512]⟩

abbrev nBuf : Space → Nat
  | .hbm => 24
  | .vmem => 0
  | .smem => 0
  | _ => 0

abbrev bufTy : (tb : Table) → Fin (tcTables nBuf tb) → BufTy
  | .hbm, ⟨0, _⟩ => ⟨S128x1024x512, .f32⟩
  | .hbm, ⟨1, _⟩ => ⟨S1024x512, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S128x512, .f32⟩
  | .hbm, ⟨6, _⟩ => ⟨S128x512, .f32⟩
  | .hbm, ⟨7, _⟩ => ⟨S1x1024x512, .f32⟩
  | .hbm, ⟨8, _⟩ => ⟨S128x1024x512, .f32⟩
  | .hbm, ⟨9, _⟩ => ⟨S128x1024x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S_, .f32⟩
  | .hbm, ⟨21, _⟩ => ⟨S128x512, .f32⟩
  | .hbm, ⟨22, _⟩ => ⟨S128x512, .i1⟩
  | .hbm, ⟨23, _⟩ => ⟨S128x512, .f32⟩
  | _, _ => ⟨S128x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S1024x512_S1x1024x512_1_2 : S1024x512.BroadcastsInDim S1x1024x512 (![1, 2] : Fin 2 → Fin S1x1024x512.rank)
  bcast_S1x1024x512_S128x1024x512_0_1_2 : S1x1024x512.BroadcastsInDim S128x1024x512 (![0, 1, 2] : Fin 3 → Fin S128x1024x512.rank)
  reducesTo_S128x1024x512_S128x512_d1 : S128x1024x512.ReducesTo [1] S128x512
  h_S_ : 0 < S_.numel

variable [Facts₀]

class Facts : Prop extends Facts₀ where

variable [Facts]
-- ==== Proof.Pieces.lean ====
/-
  What one run of the kernel body leaves behind, as values of what it loaded.

  The body keeps a running total in a scratch block of 32 rows by 512 cells.  At the first of a row group's
  four steps it clears the total, then at every step it adds the step's share; at the last step it also
  writes the new membrane and the spike from the finished total.  A run ends with each buffer holding a list
  of stores, one list per control case; here each list is read back as one value:

    first step   the total is  (cleared block) + share      `total_first`
    middle step  the total is  (previous total) + share      `total_mid`
    last step    the total is  (previous total) + share      `total_last`
                 the membrane block is the update at the finished total   `membrane_block`
                 the spike block is the threshold test of that membrane   `spike_block`

  A load that follows a store to the same whole block reads what was stored.  All of this holds at any
  interpretation of the floats.
-/
import proofs.«161404_j13022340841819_1_alg».proof.Proof.Gen.KernelIdeal.Frame
import Idealize.ShloMosaic.Lib.Pipeline.Value
import Idealize.ShloMosaic.Lib.Tactic

noncomputable section

namespace Cert.Lif.Pieces

open Idealize.ShloMosaic Idealize.ShloMosaic.TcCoe Idealize.SL.Sem
open Cert.KernelIdeal Cert.KernelIdeal.Gen

variable {F : FTy → Type} [FloatOps F]

/-- The zero offset of a rank-2 block. -/
theorem off2 : (![0, 0] : Fin 2 → Nat) = fun _ => 0 := funext fun a => by fin_cases a <;> rfl
/-- The zero offset of a rank-3 block. -/
theorem off3 : (![0, 0, 0] : Fin 3 → Nat) = fun _ => 0 := funext fun a => by fin_cases a <;> rfl

variable (c : Dev nD) (i : grid0.Coords)
  (a2 : Memref sig .tc .vmem S32x256x512 .f32) (h2 : a2.IsWhole) (a3 : Memref sig .tc .vmem S256x512 .f32) (h3 : a3.IsWhole)
  (a4 : Memref sig .tc .vmem S32x512 .f32) (h4 : a4.IsWhole) (a5 : Memref sig .tc .vmem S32x512 .f32) (h5 : a5.IsWhole)
  (a6 : Memref sig .tc .vmem S32x512 .f32) (h6 : a6.IsWhole) (a7 : Memref sig .tc .vmem S32x512 .f32) (h7 : a7.IsWhole)
  (a8 : Memref sig .tc .vmem S32x512 .f32) (h8 : a8.IsWhole)
  (x0 : Vec F S32x256x512 .f32) (x1 : Vec F S256x512 .f32) (x2 x3 xs0 : Vec F S32x512 .f32)

/-- A middle step leaves in the scratch the previous total plus the step's share. -/
theorem total_mid (hc0 : ¬cond0_0 i) (hc1 : ¬cond0_1 i) :
    sout0_B_0 c i a2 h2 a3 h3 a4 h4 a5 h5 a6 h6 a7 h7 a8 h8 hc0 hc1 x0 x1 x2 x3 xs0 = k0_pay2 xs0 x0 x1 := by
  unfold sout0_B_0
  rw [View.read_writes_eq_canon _ _ _ (scover0_B_0 c i a2 h2 a3 h3 a4 h4 a5 h5 a6 h6 a7 h7 a8 h8 hc0 hc1 x0 x1 x2 x3 xs0)]
  unfold kernelRun0_B
  dsimp only
  sl_unfold_words
  rw [View.canon_unit_zero off2]
  simp only [View.readAt_eq_ld, h2.read_unread, h3.read_unread, h8.read_unread, View.ld_unit_zero (S := S32x512) off2,
    View.ld_unit_zero (S := S32x256x512) off3, View.ld_unit_zero (S := S256x512) off2]

/-- The first step clears the scratch, reads the cleared block back, and leaves it plus the step's share. -/
theorem total_first (hc0 : cond0_0 i) (hc1 : ¬cond0_1 i) :
    sout0_A_0 c i a2 h2 a3 h3 a4 h4 a5 h5 a6 h6 a7 h7 a8 h8 hc0 hc1 x0 x1 x2 x3 = k0_pay2 k0_pay1 x0 x1 := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S32x512) off2, View.readCov_unit_zero (S := S32x512) _ off2]
  simp only [View.readAt_eq_ld, h2.read_unread, h3.read_unread, View.ld_unit_zero (S := S32x512) off2,
    View.ld_unit_zero (S := S32x256x512) off3, View.ld_unit_zero (S := S256x512) off2]

/-- The last step leaves in the scratch the previous total plus the step's share, as a middle step does. -/
theorem total_last (hc0 : ¬cond0_0 i) (hc1 : cond0_1 i) :
    sout0_C_0 c i a2 h2 a3 h3 a4 h4 a5 h5 a6 h6 a7 h7 a8 h8 hc0 hc1 x0 x1 x2 x3 xs0 = k0_pay2 xs0 x0 x1 := by
  unfold sout0_C_0
  rw [View.read_writes_eq_canon _ _ _ (scover0_C_0 c i a2 h2 a3 h3 a4 h4 a5 h5 a6 h6 a7 h7 a8 h8 hc0 hc1 x0 x1 x2 x3 xs0)]
  unfold kernelRun0_C
  dsimp only
  sl_unfold_words
  rw [View.canon_unit_zero off2]
  simp only [View.readAt_eq_ld, h2.read_unread, h3.read_unread, h8.read_unread, View.ld_unit_zero (S := S32x512) off2,
    View.ld_unit_zero (S := S32x256x512) off3, View.ld_unit_zero (S := S256x512) off2]

/-- The last step writes the membrane update of the state blocks at the finished total, read back from the scratch. -/
theorem membrane_block (hc0 : ¬cond0_0 i) (hc1 : cond0_1 i) :
    out0_C_4 c i a2 h2 a3 h3 a4 h4 a5 h5 a6 h6 a7 h7 a8 h8 hc0 hc1 x0 x1 x2 x3 xs0
      = k0_pay3 x2 (k0_pay2 xs0 x0 x1) x3 := by
  unfold out0_C_4
  rw [View.read_writes_eq_canon _ _ _ (cover0_C_4 c i a2 h2 a3 h3 a4 h4 a5 h5 a6 h6 a7 h7 a8 h8 hc0 hc1 x0 x1 x2 x3 xs0)]
  unfold kernelRun0_C
  dsimp only
  sl_unfold_words
  rw [View.canon_unit_zero off2]
  simp only [View.readAt_eq_ld, h2.read_unread, h3.read_unread, h4.read_unread, h5.read_unread, h8.read_unread,
    View.readCov_unit_zero (S := S32x512) _ off2, View.ld_unit_zero (S := S32x512) off2,
    View.ld_unit_zero (S := S32x256x512) off3, View.ld_unit_zero (S := S256x512) off2]

/-- The last step writes the spike: the threshold test of that same membrane. -/
theorem spike_block (hc0 : ¬cond0_0 i) (hc1 : cond0_1 i) :
    out0_C_5 c i a2 h2 a3 h3 a4 h4 a5 h5 a6 h6 a7 h7 a8 h8 hc0 hc1 x0 x1 x2 x3 xs0
      = k0_pay4 x2 (k0_pay2 xs0 x0 x1) x3 := by
  unfold out0_C_5
  rw [View.read_writes_eq_canon _ _ _ (cover0_C_5 c i a2 h2 a3 h3 a4 h4 a5 h5 a6 h6 a7 h7 a8 h8 hc0 hc1 x0 x1 x2 x3 xs0)]
  unfold kernelRun0_C
  dsimp only
  sl_unfold_words
  rw [View.canon_unit_zero off2]
  simp only [View.readAt_eq_ld, h2.read_unread, h3.read_unread, h4.read_unread, h5.read_unread, h8.read_unread,
    View.readCov_unit_zero (S := S32x512) _ off2, View.ld_unit_zero (S := S32x512) off2,
    View.ld_unit_zero (S := S32x256x512) off3, View.ld_unit_zero (S := S256x512) off2]

end Cert.Lif.Pieces

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.Spec.lean ====
/-
  The leaky integrate-and-fire step as one function of its four arrays, over the extended reals.

  A cell (b, n) receives the current  drive(b, n) = sum over the 1024 traces i of x(b, i, n) * w(i, n),
  its membrane moves to  leak * v(b, n) + drive(b, n) - threshold * z(b, n),  and it fires (1, else 0) when
  that membrane less the threshold is above zero.  `leak` and `threshold` are the values two bit patterns
  denote; the same patterns stand on both sides of the comparison this certificate makes, so they are never
  evaluated.

  The 1024 traces fall into four stretches of 256 consecutive ones.  Addition of extended reals is commutative
  and associative, so the current is the sum of the four stretches' shares whatever the order: `drive_eq_shares`.
  The arrays are read at natural coordinates (`traceAt`, `weightAt`: zero past the array's end, where nothing
  reads) so that "row 32 * g + p, trace 256 * k + r" needs no bound carried beside it.
-/
import Idealize.ShloMosaic.PureOps.Ideal
import Idealize.ShloMosaic.Lib.ValueIdx
import proofs.«161404_j13022340841819_1_alg».proof.Proof.LibBlockSum

noncomputable section

namespace Cert.Lif

open Idealize.ShloMosaic Idealize.ShloMosaic.ValueIdx
open scoped BigOperators

/-- The input traces: 128 batch rows, 1024 traces, 512 cells. -/
abbrev Traces : Shape := ⟨3, ![128, 1024, 512]⟩
/-- The synaptic weights: 1024 traces, 512 cells. -/
abbrev Weights : Shape := ⟨2, ![1024, 512]⟩
/-- The cells' state: 128 batch rows, 512 cells. -/
abbrev Cells : Shape := ⟨2, ![128, 512]⟩

/-- The leak factor: the value the pattern of f32(0.995) denotes. -/
def leak : EReal := Ideal.ofBits .f32 0x3F7EB852#32
/-- The firing threshold: the value the pattern of 2.0 denotes. -/
def threshold : EReal := Ideal.ofBits .f32 0x40000000#32

/-- The current into cell (b, n): every trace times its weight, summed over the traces. -/
def drive (x : Traces.Idx → EReal) (w : Weights.Idx → EReal) (b : Fin 128) (n : Fin 512) : EReal :=
  ∑ i : Fin 1024, x (ix3 b i n) * w (ix2 i n)

/-- The membrane after the step. -/
def membrane (x : Traces.Idx → EReal) (w : Weights.Idx → EReal) (v z : Cells.Idx → EReal) : Cells.Idx → EReal :=
  fun j => leak * v j + drive x w (j 0) (j 1) - threshold * z j

/-- The spike after the step: one where the membrane less the threshold is above zero, else zero. -/
def spike (x : Traces.Idx → EReal) (w : Weights.Idx → EReal) (v z : Cells.Idx → EReal) : Cells.Idx → EReal :=
  fun j => FloatOps.uitofp (F := Ideal) .f32
    (Ideal.cmp .ogt (membrane x w v z j - threshold) (Ideal.ofBits .f32 0x00000000#32))

/-- The traces read at natural coordinates. -/
def traceAt (x : Traces.Idx → EReal) (b i : ℕ) (n : Fin 512) : EReal :=
  if h : b < 128 ∧ i < 1024 then x (ix3 ⟨b, h.1⟩ ⟨i, h.2⟩ n) else 0

/-- The weights read at natural coordinates. -/
def weightAt (w : Weights.Idx → EReal) (i : ℕ) (n : Fin 512) : EReal :=
  if h : i < 1024 then w (ix2 ⟨i, h⟩ n) else 0

/-- The share of the current into cell (b, n) that stretch `k` of 256 consecutive traces carries. -/
def share (x : Traces.Idx → EReal) (w : Weights.Idx → EReal) (b : ℕ) (n : Fin 512) (k : ℕ) : EReal :=
  ∑ r : Fin 256, traceAt x b (256 * k + r.val) n * weightAt w (256 * k + r.val) n

/-- The current is the sum of its four stretches' shares. -/
theorem drive_eq_shares (x : Traces.Idx → EReal) (w : Weights.Idx → EReal) (b : Fin 128) (n : Fin 512) :
    drive x w b n = ∑ k ∈ Finset.range 4, share x w b.val n k := by
  have hterm : ∀ i : Fin 1024,
      x (ix3 b i n) * w (ix2 i n) = traceAt x b.val i.val n * weightAt w i.val n := fun i => by
    have hi : i.val < 1024 := i.isLt
    unfold traceAt weightAt
    rw [dif_pos ⟨b.isLt, hi⟩, dif_pos hi]
  rw [Finset.sum_range]
  unfold drive share
  exact (Finset.sum_congr rfl fun i _ => hterm i).trans
    (Cert.BlockSum.sum_blocks 4 256 (fun i : Fin (4 * 256) => traceAt x b.val i.val n * weightAt w i.val n)).symm

end Cert.Lif

end
-- ==== Proof.PayloadAt.lean ====
/-
  The kernel body's arithmetic over the extended reals, read at one cell.

  The step's share: the trace block times the weight block repeated over the 32 rows, summed over the block's
  256 traces; added to the running total.  At cell (p, q) that is
      total(p, q) + sum over r of x(p, r, q) * w(r, q).
  The cleared block is zero everywhere.  The membrane update and the threshold test act cell by cell.  The
  kernel turns the test's bit into a float by widening it to a 32-bit word read signed; a bit widened with
  zeros is not negative, so that is the bit read unsigned, which is how the specification reads it.
-/
import proofs.«161404_j13022340841819_1_alg».proof.Proof.Gen.KernelIdeal.Skeleton
import proofs.«161404_j13022340841819_1_alg».proof.Proof.Spec
import Idealize.ShloMosaic.Lib.Pipeline.Value
import Idealize.ShloMosaic.Lib.ValueLayout
import Idealize.ShloMosaic.PureOps.Ideal.Laws

noncomputable section

namespace Cert.Lif.Payload

open Idealize.ShloMosaic Idealize.ShloMosaic.ValueIdx Idealize.ShloMosaic.Pipeline
open Cert.KernelIdeal Cert.KernelIdeal.Gen
open scoped BigOperators

/-- A block of one row group's weights repeated over the 32 rows reads, at row `p`, its only row. -/
theorem repeated_rows {α : Type} (v : S1x256x512.Idx → α) (h : S1x256x512.Broadcasts S32x256x512)
    (p : Fin 32) (r : Fin 256) (q : Fin 512) :
    broadcastTo S32x256x512 v h (ix3 p r q) = v (ix3 (0 : Fin 1) r q) := by
  refine broadcastTo_apply v h (ix3 p r q) (ix3 (0 : Fin 1) r q) fun ax => ?_
  match ax with
  | ⟨0, _⟩ => rfl
  | ⟨1, _⟩ => show r.val = if (256 : Nat) = 1 then 0 else r.val; rw [if_neg (by decide)]
  | ⟨2, _⟩ => show q.val = if (512 : Nat) = 1 then 0 else q.val; rw [if_neg (by decide)]

/-- The cleared block is zero at every cell. -/
theorem cleared_apply (j : S32x512.Idx) : k0_pay1 (F := Ideal) j = 0 := by
  unfold k0_pay1
  rw [shapeCast_self]
  exact Ideal.ofBits_zero_f32

/-- The running total after a step, at cell (p, q): the total before plus the step's share. -/
theorem total_apply (a : Vec Ideal S32x512 .f32) (xb : Vec Ideal S32x256x512 .f32) (wb : Vec Ideal S256x512 .f32)
    (p : Fin 32) (q : Fin 512) :
    k0_pay2 (F := Ideal) a xb wb (ix2 p q) = a (ix2 p q) + ∑ r : Fin 256, xb (ix3 p r q) * wb (ix2 r q) := by
  unfold k0_pay2
  dsimp only
  rw [shapeCast_self, addf_apply]
  refine congrArg (a (ix2 p q) + ·)
    ((Ideal.multiReduction_add_single _ _ reduces_S32x256x512_S32x512 _ _ (ix2 p q)).trans ?_)
  refine Finset.sum_congr rfl fun (r : Fin 256) _ => ?_
  have hl : reduces_S32x256x512_S32x512.lift (ix2 p q) r = ix3 p r q :=
    funext fun d => Fin.ext (by match d with | ⟨0, _⟩ => rfl | ⟨1, _⟩ => rfl | ⟨2, _⟩ => rfl)
  rw [hl, mulf_apply, repeated_rows, shapeCast_ab_1ab_apply]

/-- The membrane update, at a cell. -/
theorem membrane_apply (vb ab zb : Vec Ideal S32x512 .f32) (j : S32x512.Idx) :
    k0_pay3 (F := Ideal) vb ab zb j = leak * vb j + ab j - threshold * zb j := rfl

/-- A bit widened with zeros to 32 bits and read signed is the bit read unsigned. -/
theorem widened_bit (b : BitVec 1) : (b.setWidth 32).toInt = (b.toNat : ℤ) := by
  have h := b.isLt
  rcases (by omega : b.toNat = 0 ∨ b.toNat = 1) with h0 | h1
  · obtain rfl : b = 0#1 := BitVec.eq_of_toNat_eq (by simpa using h0)
    decide
  · obtain rfl : b = 1#1 := BitVec.eq_of_toNat_eq (by simpa using h1)
    decide

/-- The spike, at a cell: the threshold test of the membrane update, its bit read as a float. -/
theorem spike_apply (vb ab zb : Vec Ideal S32x512 .f32) (j : S32x512.Idx) :
    k0_pay4 (F := Ideal) vb ab zb j
      = FloatOps.uitofp (F := Ideal) .f32
          (Ideal.cmp .ogt (leak * vb j + ab j - threshold * zb j - threshold) (Ideal.ofBits .f32 0x00000000#32)) := by
  show (((((Ideal.cmp .ogt (leak * vb j + ab j - threshold * zb j - threshold) (Ideal.ofBits .f32 0x00000000#32)).setWidth 32).toInt : ℤ) : ℝ) : EReal)
    = ((((Ideal.cmp .ogt (leak * vb j + ab j - threshold * zb j - threshold) (Ideal.ofBits .f32 0x00000000#32)).toNat : ℕ) : ℝ) : EReal)
  rw [widened_bit]
  norm_cast

end Cert.Lif.Payload

end
-- ==== Proof.Blocks.lean ====
/-
  The grid and the blocks it reads.

  The sixteen grid points go row group by row group: point t serves row group t / 4 (32 batch rows) at step
  t % 4 (256 traces).  There the trace window holds rows 32 * (t / 4) + p and traces 256 * (t % 4) + r of x, the
  weight window holds traces 256 * (t % 4) + r of w, and the two state windows hold rows 32 * (t / 4) + p of
  v and z.  A block's coordinate along an axis is the block's index times the block's extent plus the
  coordinate inside the block.
-/
import proofs.«161404_j13022340841819_1_alg».proof.Proof.Gen.KernelIdeal.Frame
import proofs.«161404_j13022340841819_1_alg».proof.Proof.Spec
import Idealize.ShloMosaic.Lib.Pipeline.Value

noncomputable section

namespace Cert.Lif.Blocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The four argument arrays as the kernel finds them. -/
abbrev xs (c : Dev nD) : Vec Ideal S128x1024x512 .f32 := V m c main_arg0
abbrev ws (c : Dev nD) : Vec Ideal S1024x512 .f32 := V m c main_arg1
abbrev vs (c : Dev nD) : Vec Ideal S128x512 .f32 := V m c main_arg2
abbrev zs (c : Dev nD) : Vec Ideal S128x512 .f32 := V m c main_arg3

/-- The four input blocks at a grid point. -/
abbrev xblk (c : Dev nD) (t : Fin cfg0.N) : Vec Ideal S32x256x512 .f32 := iblk m c 0 t
abbrev wblk (c : Dev nD) (t : Fin cfg0.N) : Vec Ideal S256x512 .f32 := iblk m c 1 t
abbrev vblk (c : Dev nD) (t : Fin cfg0.N) : Vec Ideal S32x512 .f32 := iblk m c 2 t
abbrev zblk (c : Dev nD) (t : Fin cfg0.N) : Vec Ideal S32x512 .f32 := iblk m c 3 t

/-- There are sixteen grid points. -/
theorem point_lt (t : Fin cfg0.N) : t.val < 16 := lt_of_lt_of_eq t.isLt (show cfg0.N = 16 from N_0)

/-- Which block of x a point reads: row group t / 4, trace stretch t % 4. -/
theorem x_index : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
/-- Which block of w a point reads: trace stretch t % 4. -/
theorem w_index : ∀ t : Fin cfg0.N, win0_1.index t 0 = t.val % 4 ∧ win0_1.index t 1 = 0 :=
  (by decide +kernel : ∀ t : Fin grid0.N, win0_1.index t 0 = t.val % 4 ∧ win0_1.index t 1 = 0)
/-- Which block of v a point reads: row group t / 4. -/
theorem v_index : ∀ t : Fin cfg0.N, win0_2.index t 0 = t.val / 4 ∧ win0_2.index t 1 = 0 :=
  (by decide +kernel : ∀ t : Fin grid0.N, win0_2.index t 0 = t.val / 4 ∧ win0_2.index t 1 = 0)
/-- Which block of z a point reads: row group t / 4. -/
theorem z_index : ∀ t : Fin cfg0.N, win0_3.index t 0 = t.val / 4 ∧ win0_3.index t 1 = 0 :=
  (by decide +kernel : ∀ t : Fin grid0.N, win0_3.index t 0 = t.val / 4 ∧ win0_3.index t 1 = 0)
/-- Which block of the membrane array a point's write-back goes to: row group t / 4. -/
theorem membrane_index : ∀ t : Fin cfg0.N, win0_4.index t 0 = t.val / 4 ∧ win0_4.index t 1 = 0 :=
  (by decide +kernel : ∀ t : Fin grid0.N, win0_4.index t 0 = t.val / 4 ∧ win0_4.index t 1 = 0)
/-- Which block of the spike array a point's write-back goes to: row group t / 4. -/
theorem spike_index : ∀ t : Fin cfg0.N, win0_5.index t 0 = t.val / 4 ∧ win0_5.index t 1 = 0 :=
  (by decide +kernel : ∀ t : Fin grid0.N, win0_5.index t 0 = t.val / 4 ∧ win0_5.index t 1 = 0)

/-- The trace block at (p, r, q) is x at row 32 * (t / 4) + p, trace 256 * (t % 4) + r, cell q. -/
theorem xblk_apply (c : Dev nD) (t : Fin cfg0.N) (p : Fin 32) (r : Fin 256) (q : Fin 512) :
    xblk m c t (ix3 p r q) = traceAt (xs m c) (32 * (t.val / 4) + p.val) (256 * (t.val % 4) + r.val) q := by
  have hN := point_lt t
  unfold traceAt
  rw [dif_pos ⟨by omega, by omega⟩]
  show iblk m c 0 t (ix3 p r q) = _
  unfold iblk
  rw [View.read_apply]
  show V m c main_arg0 _ = V m c main_arg0 _
  refine congrArg (V m c main_arg0) (funext fun a => Fin.ext ?_)
  match a with
  | ⟨0, _⟩ => show win0_0.index t 0 * 32 + 1 * p.val = 32 * (t.val / 4) + p.val; rw [(x_index t).1]; omega
  | ⟨1, _⟩ => show win0_0.index t 1 * 256 + 1 * r.val = 256 * (t.val % 4) + r.val; rw [(x_index t).2.1]; omega
  | ⟨2, _⟩ => show win0_0.index t 2 * 512 + 1 * q.val = q.val; rw [(x_index t).2.2]; omega

/-- The weight block at (r, q) is w at trace 256 * (t % 4) + r, cell q. -/
theorem wblk_apply (c : Dev nD) (t : Fin cfg0.N) (r : Fin 256) (q : Fin 512) :
    wblk m c t (ix2 r q) = weightAt (ws m c) (256 * (t.val % 4) + r.val) q := by
  have hN := point_lt t
  unfold weightAt
  rw [dif_pos (by omega)]
  show iblk m c 1 t (ix2 r q) = _
  unfold iblk
  rw [View.read_apply]
  show V m c main_arg1 _ = V m c main_arg1 _
  refine congrArg (V m c main_arg1) (funext fun a => Fin.ext ?_)
  match a with
  | ⟨0, _⟩ => show win0_1.index t 0 * 256 + 1 * r.val = 256 * (t.val % 4) + r.val; rw [(w_index t).1]; omega
  | ⟨1, _⟩ => show win0_1.index t 1 * 512 + 1 * q.val = q.val; rw [(w_index t).2]; omega

/-- The row of the state arrays that row `p` of a point's state blocks is. -/
abbrev rowOf (t : Fin cfg0.N) (p : Fin 32) : Fin 128 := ⟨32 * (t.val / 4) + p.val, by have := point_lt t; omega⟩

/-- The v block at (p, q) is v at row 32 * (t / 4) + p, cell q. -/
theorem vblk_apply (c : Dev nD) (t : Fin cfg0.N) (p : Fin 32) (q : Fin 512) :
    vblk m c t (ix2 p q) = vs m c (ix2 (rowOf t p) q) := by
  show iblk m c 2 t (ix2 p q) = _
  unfold iblk
  rw [View.read_apply]
  show V m c main_arg2 _ = V m c main_arg2 _
  refine congrArg (V m c main_arg2) (funext fun a => Fin.ext ?_)
  match a with
  | ⟨0, _⟩ => show win0_2.index t 0 * 32 + 1 * p.val = 32 * (t.val / 4) + p.val; rw [(v_index t).1]; omega
  | ⟨1, _⟩ => show win0_2.index t 1 * 512 + 1 * q.val = q.val; rw [(v_index t).2]; omega

/-- The z block at (p, q) is z at row 32 * (t / 4) + p, cell q. -/
theorem zblk_apply (c : Dev nD) (t : Fin cfg0.N) (p : Fin 32) (q : Fin 512) :
    zblk m c t (ix2 p q) = zs m c (ix2 (rowOf t p) q) := by
  show iblk m c 3 t (ix2 p q) = _
  unfold iblk
  rw [View.read_apply]
  show V m c main_arg3 _ = V m c main_arg3 _
  refine congrArg (V m c main_arg3) (funext fun a => Fin.ext ?_)
  match a with
  | ⟨0, _⟩ => show win0_3.index t 0 * 32 + 1 * p.val = 32 * (t.val / 4) + p.val; rw [(z_index t).1]; omega
  | ⟨1, _⟩ => show win0_3.index t 1 * 512 + 1 * q.val = q.val; rw [(z_index t).2]; omega

end Cert.Lif.Blocks

end
-- ==== Proof.Running.lean ====
/-
  The running total, point by point.

  After point t the scratch block holds, at row p and cell q, the shares of the stretches done so far for
  the point's row group:
      sum over k ≤ t % 4 of share(row 32 * (t / 4) + p, cell q, stretch k).
  At a row group's first step the block is cleared first, and zero plus a share is the share.  At a later
  step the point before belongs to the same row group and has done one stretch fewer, and the step adds its
  own share to what that point left.  So the claim passes from each point to the next.
-/
import proofs.«161404_j13022340841819_1_alg».proof.Proof.Pieces
import proofs.«161404_j13022340841819_1_alg».proof.Proof.PayloadAt
import proofs.«161404_j13022340841819_1_alg».proof.Proof.Blocks

noncomputable section

namespace Cert.Lif.Running

open Idealize.ShloMosaic Idealize.ShloMosaic.TcCoe Idealize.SL.Sem Idealize.ShloMosaic.ValueIdx
open Cert.KernelIdeal Cert.KernelIdeal.Gen Cert.Lif.Blocks
open scoped BigOperators

variable (m : (ℓ : Loc nD τ sig) → Buf (Elt Ideal) ℓ)

/-- What point `t`'s blocks contribute at (p, q) is the share of stretch t % 4 for row 32 * (t / 4) + p. -/
theorem step_share (c : Dev nD) (t : Fin cfg0.N) (p : Fin 32) (q : Fin 512) :
    ∑ r : Fin 256, xblk m c t (ix3 p r q) * wblk m c t (ix2 r q)
      = share (xs m c) (ws m c) (32 * (t.val / 4) + p.val) q (t.val % 4) := by
  unfold share
  exact Finset.sum_congr rfl fun r _ => by rw [xblk_apply, wblk_apply]

/-- What the scratch holds after point `n`. -/
abbrev totalAfter (c : Dev nD) (n : ℕ) (hn : n < cfg0.N) : Vec Ideal S32x512 .f32 := (outsAt0 m c n hn).2.2

/-- The shares a row group has gathered once its stretches 0 … j are done. -/
abbrev gathered (c : Dev nD) (n : ℕ) (p : Fin 32) (q : Fin 512) : EReal :=
  ∑ k ∈ Finset.range (n % 4 + 1), share (xs m c) (ws m c) (32 * (n / 4) + p.val) q k

/-- At a row group's first step the scratch ends with the first stretch's share alone. -/
theorem first_step (c : Dev nD) (t : Fin cfg0.N) (h0 : t.val % 4 = 0) (p : Fin 32) (q : Fin 512) :
    totalAfter m c t.val t.isLt (ix2 p q) = gathered m c t.val p q := by
  have h1 : ¬t.val % 4 = 3 := by omega
  show (outsAt0 m c t.val t.isLt).2.2 (ix2 p q) = _
  rw [outsAt0_A m c t h0 h1]
  dsimp only
  refine (congrFun (Pieces.total_first (F := Ideal) c (grid0.coords t) (ms0_0 t) (hs0_0 t) (ms0_1 t) (hs0_1 t)
    (ms0_2 t) (hs0_2 t) (ms0_3 t) (hs0_3 t) (ms0_4 t) (hs0_4 t) (ms0_5 t) (hs0_5 t) scM0_0 (Memref.isWhole_whole _)
    (xblk m c t) (wblk m c t) (vblk m c t) (zblk m c t)
    ((hcond0_0 t).mpr h0) (fun h => h1 ((hcond0_1 t).mp h))) (ix2 p q)).trans ?_
  rw [Payload.total_apply, Payload.cleared_apply, zero_add, step_share]
  show _ = ∑ k ∈ Finset.range (t.val % 4 + 1), share (xs m c) (ws m c) (32 * (t.val / 4) + p.val) q k
  rw [h0]
  exact (Finset.sum_range_one _).symm

/-- At a later step the scratch ends with what the point before left plus this stretch's share. -/
theorem later_step (c : Dev nD) (t : Fin cfg0.N) (h0 : ¬t.val % 4 = 0)
    (ih : ∀ (p : Fin 32) (q : Fin 512),
      totalAfter m c (t.val - 1) (Nat.lt_of_le_of_lt (Nat.sub_le _ _) t.isLt) (ix2 p q) = gathered m c (t.val - 1) p q)
    (p : Fin 32) (q : Fin 512) :
    totalAfter m c t.val t.isLt (ix2 p q) = gathered m c t.val p q := by
  have hd : (t.val - 1) / 4 = t.val / 4 := by omega
  have hm : (t.val - 1) % 4 + 1 = t.val % 4 := by omega
  have hsum : gathered m c (t.val - 1) p q + share (xs m c) (ws m c) (32 * (t.val / 4) + p.val) q (t.val % 4)
      = gathered m c t.val p q := by
    show ∑ k ∈ Finset.range ((t.val - 1) % 4 + 1), share (xs m c) (ws m c) (32 * ((t.val - 1) / 4) + p.val) q k + _
      = ∑ k ∈ Finset.range (t.val % 4 + 1), share (xs m c) (ws m c) (32 * (t.val / 4) + p.val) q k
    rw [hd, hm, Finset.sum_range_succ]
  show (outsAt0 m c t.val t.isLt).2.2 (ix2 p q) = _
  by_cases h1 : t.val % 4 = 3
  · rw [outsAt0_C m c t h0 h1]
    dsimp only
    refine (congrFun (Pieces.total_last (F := Ideal) c (grid0.coords t) (ms0_0 t) (hs0_0 t) (ms0_1 t) (hs0_1 t)
      (ms0_2 t) (hs0_2 t) (ms0_3 t) (hs0_3 t) (ms0_4 t) (hs0_4 t) (ms0_5 t) (hs0_5 t) scM0_0 (Memref.isWhole_whole _)
      (xblk m c t) (wblk m c t) (vblk m c t) (zblk m c t)
      (totalAfter m c (t.val - 1) (Nat.lt_of_le_of_lt (Nat.sub_le _ _) t.isLt))
      (fun h => h0 ((hcond0_0 t).mp h)) ((hcond0_1 t).mpr h1)) (ix2 p q)).trans ?_
    rw [Payload.total_apply, ih, step_share, hsum]
  · rw [outsAt0_B m c t h0 h1]
    dsimp only
    refine (congrFun (Pieces.total_mid (F := Ideal) c (grid0.coords t) (ms0_0 t) (hs0_0 t) (ms0_1 t) (hs0_1 t)
      (ms0_2 t) (hs0_2 t) (ms0_3 t) (hs0_3 t) (ms0_4 t) (hs0_4 t) (ms0_5 t) (hs0_5 t) scM0_0 (Memref.isWhole_whole _)
      (xblk m c t) (wblk m c t) (vblk m c t) (zblk m c t)
      (totalAfter m c (t.val - 1) (Nat.lt_of_le_of_lt (Nat.sub_le _ _) t.isLt))
      (fun h => h0 ((hcond0_0 t).mp h)) (fun h => h1 ((hcond0_1 t).mp h))) (ix2 p q)).trans ?_
    rw [Payload.total_apply, ih, step_share, hsum]

/-- After every point the scratch holds the shares gathered so far for the point's row group. -/
theorem totalAfter_eq (c : Dev nD) : ∀ (n : ℕ) (hn : n < cfg0.N) (p : Fin 32) (q : Fin 512),
    totalAfter m c n hn (ix2 p q) = gathered m c n p q := by
  intro n
  induction n with
  | zero => exact fun hn p q => first_step m c ⟨0, hn⟩ rfl p q
  | succ n ih =>
    intro hn p q
    by_cases h0 : (n + 1) % 4 = 0
    · exact first_step m c ⟨n + 1, hn⟩ h0 p q
    · exact later_step m c ⟨n + 1, hn⟩ h0 (fun p' q' => ih (Nat.lt_of_succ_lt hn) p' q') p q

/-- At a row group's last step the finished total is what the point before left plus the last stretch's share. -/
theorem last_total (c : Dev nD) (t : Fin cfg0.N) (h0 : ¬t.val % 4 = 0) (h3 : t.val % 4 = 3) :
    totalAfter m c t.val t.isLt
      = k0_pay2 (F := Ideal) (totalAfter m c (t.val - 1) (Nat.lt_of_le_of_lt (Nat.sub_le _ _) t.isLt)) (xblk m c t) (wblk m c t) := by
  show (outsAt0 m c t.val t.isLt).2.2 = _
  rw [outsAt0_C m c t h0 h3]
  dsimp only
  exact Pieces.total_last (F := Ideal) c (grid0.coords t) (ms0_0 t) (hs0_0 t) (ms0_1 t) (hs0_1 t)
    (ms0_2 t) (hs0_2 t) (ms0_3 t) (hs0_3 t) (ms0_4 t) (hs0_4 t) (ms0_5 t) (hs0_5 t) scM0_0 (Memref.isWhole_whole _)
    (xblk m c t) (wblk m c t) (vblk m c t) (zblk m c t)
    (totalAfter m c (t.val - 1) (Nat.lt_of_le_of_lt (Nat.sub_le _ _) t.isLt))
    (fun h => h0 ((hcond0_0 t).mp h)) ((hcond0_1 t).mpr h3)

/-- Once a row group's last step is done the scratch holds the whole current into each of its cells. -/
theorem total_done (c : Dev nD) (t : Fin cfg0.N) (h3 : t.val % 4 = 3) (p : Fin 32) (q : Fin 512) :
    totalAfter m c t.val t.isLt (ix2 p q) = drive (xs m c) (ws m c) (rowOf t p) q := by
  rw [totalAfter_eq m c t.val t.isLt p q, drive_eq_shares]
  show ∑ k ∈ Finset.range (t.val % 4 + 1), share (xs m c) (ws m c) (32 * (t.val / 4) + p.val) q k = _
  rw [h3]

end Cert.Lif.Running

end
-- ==== Proof.KernelValue.lean ====
/-
  What the kernel's two result arrays hold after the run.

  Only a row group's last step writes its output blocks back: point t with t % 4 = 3 writes rows
  32 * (t / 4) … 32 * (t / 4) + 31 of the membrane and of the spike.  By then the scratch holds the whole current
  into each cell of the row group, so the membrane block is the specification's membrane on those rows and the
  spike block its threshold test.  Row b lies in the block that point 4 * (b / 32) + 3 writes, so the four
  written blocks cover both arrays, and each array ends as the specification's function of the four arguments.
-/
import proofs.«161404_j13022340841819_1_alg».proof.Proof.Running
import proofs.«161404_j13022340841819_1_alg».proof.Proof.Gen.KernelIdeal.Value

noncomputable section

namespace Cert.Lif.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.Lif.Blocks Cert.Lif.Running

variable (m : (ℓ : Loc nD τ sig) → Buf (Elt Ideal) ℓ) (ρ : Dev nD → PrngReg)

/-- The specification's membrane of the arrays the kernel finds. -/
abbrev membraneOf (c : Dev nD) : Vec Ideal S128x512 .f32 := membrane (xs m c) (ws m c) (vs m c) (zs m c)
/-- The specification's spike of the arrays the kernel finds. -/
abbrev spikeOf (c : Dev nD) : Vec Ideal S128x512 .f32 := spike (xs m c) (ws m c) (vs m c) (zs m c)

/-- The point before `t`. -/
abbrev before (t : Fin cfg0.N) : t.val - 1 < cfg0.N := Nat.lt_of_le_of_lt (Nat.sub_le _ _) t.isLt

/-- At a row group's last step the membrane written at (p, q) is the specification's at row 32 * (t / 4) + p. -/
theorem membrane_cell (c : Dev nD) (t : Fin cfg0.N) (h3 : t.val % 4 = 3) (p : Fin 32) (q : Fin 512) :
    k0_pay3 (F := Ideal) (vblk m c t) (k0_pay2 (F := Ideal) (totalAfter m c (t.val - 1) (before t)) (xblk m c t) (wblk m c t))
        (zblk m c t) (ix2 p q)
      = membraneOf m c (ix2 (rowOf t p) q) := by
  have h0 : ¬t.val % 4 = 0 := by omega
  rw [Payload.membrane_apply, ← last_total m c t h0 h3, total_done m c t h3 p q, vblk_apply, zblk_apply]
  rfl

/-- … and the spike written there is the specification's. -/
theorem spike_cell (c : Dev nD) (t : Fin cfg0.N) (h3 : t.val % 4 = 3) (p : Fin 32) (q : Fin 512) :
    k0_pay4 (F := Ideal) (vblk m c t) (k0_pay2 (F := Ideal) (totalAfter m c (t.val - 1) (before t)) (xblk m c t) (wblk m c t))
        (zblk m c t) (ix2 p q)
      = spikeOf m c (ix2 (rowOf t p) q) := by
  have h0 : ¬t.val % 4 = 0 := by omega
  rw [Payload.spike_apply, ← last_total m c t h0 h3, total_done m c t h3 p q, vblk_apply, zblk_apply]
  rfl

/-- Block `t` of a membrane-shaped array, read at (p, q), is the array at row 32 * (t / 4) + p. -/
theorem membrane_window_apply (G : Vec Ideal S128x512 .f32) (t : Fin cfg0.N) (p : Fin 32) (q : Fin 512) :
    ((cfg0.win 4).blk t).view.read (Elt Ideal) G (ix2 p q) = G (ix2 (rowOf t p) q) := by
  rw [View.read_apply]
  refine congrArg G (funext fun a => Fin.ext ?_)
  match a with
  | ⟨0, _⟩ => show win0_4.index t 0 * 32 + 1 * p.val = 32 * (t.val / 4) + p.val; rw [(membrane_index t).1]; omega
  | ⟨1, _⟩ => show win0_4.index t 1 * 512 + 1 * q.val = q.val; rw [(membrane_index t).2]; omega

/-- Block `t` of a spike-shaped array, read at (p, q), is the array at row 32 * (t / 4) + p. -/
theorem spike_window_apply (G : Vec Ideal S128x512 .f32) (t : Fin cfg0.N) (p : Fin 32) (q : Fin 512) :
    ((cfg0.win 5).blk t).view.read (Elt Ideal) G (ix2 p q) = G (ix2 (rowOf t p) q) := by
  rw [View.read_apply]
  refine congrArg G (funext fun a => Fin.ext ?_)
  match a with
  | ⟨0, _⟩ => show win0_5.index t 0 * 32 + 1 * p.val = 32 * (t.val / 4) + p.val; rw [(spike_index t).1]; omega
  | ⟨1, _⟩ => show win0_5.index t 1 * 512 + 1 * q.val = q.val; rw [(spike_index t).2]; omega

/-- What a writing point writes back to the membrane array is its block of the specification's membrane. -/
theorem membrane_flushed (c : Dev nD) (t : Fin cfg0.N) (hf : (cfg0.win 4).flush t = true) :
    (dats m 0 c).flushed 4 t = ((cfg0.win 4).blk t).view.read (Elt Ideal) (membraneOf m c) := by
  have h3 : t.val % 4 = 3 := (flush0_4 t).mp hf
  have h0 : ¬t.val % 4 = 0 := by omega
  rw [Cert.KernelIdeal.Value.flushed4_C m c t h0 h3]
  refine Eq.trans (Pieces.membrane_block (F := Ideal) c (grid0.coords t) (ms0_0 t) (hs0_0 t) (ms0_1 t) (hs0_1 t)
    (ms0_2 t) (hs0_2 t) (ms0_3 t) (hs0_3 t) (ms0_4 t) (hs0_4 t) (ms0_5 t) (hs0_5 t) scM0_0 (Memref.isWhole_whole _)
    (xblk m c t) (wblk m c t) (vblk m c t) (zblk m c t) (totalAfter m c (t.val - 1) (before t))
    (fun h => h0 ((hcond0_0 t).mp h)) ((hcond0_1 t).mpr h3)) ?_
  refine funext fun (j : S32x512.Idx) => ?_
  obtain ⟨p, q, rfl⟩ : ∃ (p : Fin 32) (q : Fin 512), j = ix2 p q := ⟨j 0, j 1, eq_ix2 j⟩
  exact (membrane_cell m c t h3 p q).trans (membrane_window_apply (membraneOf m c) t p q).symm

/-- What a writing point writes back to the spike array is its block of the specification's spike. -/
theorem spike_flushed (c : Dev nD) (t : Fin cfg0.N) (hf : (cfg0.win 5).flush t = true) :
    (dats m 0 c).flushed 5 t = ((cfg0.win 5).blk t).view.read (Elt Ideal) (spikeOf m c) := by
  have h3 : t.val % 4 = 3 := (flush0_5 t).mp hf
  have h0 : ¬t.val % 4 = 0 := by omega
  rw [Cert.KernelIdeal.Value.flushed5_C m c t h0 h3]
  refine Eq.trans (Pieces.spike_block (F := Ideal) c (grid0.coords t) (ms0_0 t) (hs0_0 t) (ms0_1 t) (hs0_1 t)
    (ms0_2 t) (hs0_2 t) (ms0_3 t) (hs0_3 t) (ms0_4 t) (hs0_4 t) (ms0_5 t) (hs0_5 t) scM0_0 (Memref.isWhole_whole _)
    (xblk m c t) (wblk m c t) (vblk m c t) (zblk m c t) (totalAfter m c (t.val - 1) (before t))
    (fun h => h0 ((hcond0_0 t).mp h)) ((hcond0_1 t).mpr h3)) ?_
  refine funext fun (j : S32x512.Idx) => ?_
  obtain ⟨p, q, rfl⟩ : ∃ (p : Fin 32) (q : Fin 512), j = ix2 p q := ⟨j 0, j 1, eq_ix2 j⟩
  exact (spike_cell m c t h3 p q).trans (spike_window_apply (spikeOf m c) t p q).symm

/-- The point that writes row `b`: the last step of row group b / 32. -/
abbrev writer (b : Fin 128) : Fin cfg0.N := ⟨4 * (b.val / 32) + 3, by rw [show cfg0.N = 16 from N_0]; omega⟩

/-- Every cell of the membrane array lies in the block its row's writer writes back. -/
theorem membrane_cover (i : S128x512.Idx) :
    ∃ t : Fin cfg0.N, (cfg0.win 4).flush t = true ∧ i ∈ ((cfg0.win 4).blk t).view.set := by
  have hi0 : (i 0).val < 128 := (i 0).isLt
  have hi1 : (i 1).val < 512 := (i 1).isLt
  refine ⟨writer (i 0), (flush0_4 _).mpr (by show (4 * ((i 0).val / 32) + 3) % 4 = 3; omega), ?_⟩
  show i ∈ ((View.whole main_v0_0).slice (win0_4.rect (writer (i 0)))).set
  rw [View.set_slice_whole, Rect.mem_set_unit]
  intro a
  have e := membrane_index (writer (i 0))
  have hw : (writer (i 0)).val / 4 = (i 0).val / 32 := by show (4 * ((i 0).val / 32) + 3) / 4 = _; omega
  match a with
  | ⟨0, _⟩ =>
    show win0_4.index (writer (i 0)) 0 * 32 ≤ (i 0).val ∧ (i 0).val < win0_4.index (writer (i 0)) 0 * 32 + 32
    rw [e.1, hw]; omega
  | ⟨1, _⟩ =>
    show win0_4.index (writer (i 0)) 1 * 512 ≤ (i 1).val ∧ (i 1).val < win0_4.index (writer (i 0)) 1 * 512 + 512
    rw [e.2]; omega

/-- Every cell of the spike array lies in the block its row's writer writes back. -/
theorem spike_cover (i : S128x512.Idx) :
    ∃ t : Fin cfg0.N, (cfg0.win 5).flush t = true ∧ i ∈ ((cfg0.win 5).blk t).view.set := by
  have hi0 : (i 0).val < 128 := (i 0).isLt
  have hi1 : (i 1).val < 512 := (i 1).isLt
  refine ⟨writer (i 0), (flush0_5 _).mpr (by show (4 * ((i 0).val / 32) + 3) % 4 = 3; omega), ?_⟩
  show i ∈ ((View.whole main_v0_1).slice (win0_5.rect (writer (i 0)))).set
  rw [View.set_slice_whole, Rect.mem_set_unit]
  intro a
  have e := spike_index (writer (i 0))
  have hw : (writer (i 0)).val / 4 = (i 0).val / 32 := by show (4 * ((i 0).val / 32) + 3) / 4 = _; omega
  match a with
  | ⟨0, _⟩ =>
    show win0_5.index (writer (i 0)) 0 * 32 ≤ (i 0).val ∧ (i 0).val < win0_5.index (writer (i 0)) 0 * 32 + 32
    rw [e.1, hw]; omega
  | ⟨1, _⟩ =>
    show win0_5.index (writer (i 0)) 1 * 512 ≤ (i 1).val ∧ (i 1).val < win0_5.index (writer (i 0)) 1 * 512 + 512
    rw [e.2]; omega

/-- The membrane array ends as the specification's membrane. -/
theorem membrane_final (c : Dev nD) : (dats m 0 c).arrAt 4 cfg0.N = membraneOf m c :=
  (dats m 0 c).arrAt_eq_of_cover 4 (membraneOf m c) (membrane_flushed m c) membrane_cover

/-- The spike array ends as the specification's spike. -/
theorem spike_final (c : Dev nD) : (dats m 0 c).arrAt 5 cfg0.N = spikeOf m c :=
  (dats m 0 c).arrAt_eq_of_cover 5 (spikeOf m c) (spike_flushed m c) spike_cover

/-- Every execution of the kernel ends with the two result arrays at the specification's membrane and spike
    of the argument arrays, and the arguments as they were. -/
theorem run : θ_run defs (onTc (τ := τ) (main (F := Ideal))) ⟨m, fun _ => 0, ρ⟩ fun r => ∀ c : Dev nD,
      r.2.mem ((c : Thread nD τ).loc main_v0_0) = membraneOf m c
      ∧ r.2.mem ((c : Thread nD τ).loc main_v0_1) = spikeOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (membrane_final m c), (h c).2.1.trans (spike_final m c), (h c).2.2⟩)
    (Cert.KernelIdeal.Value.run_blocks m ρ)

end Cert.Lif.KernelValue

end
-- ==== Proof.RefValue.lean ====
/-
  The reference computes the specification.

  The reference multiplies x by w repeated over the batch rows, sums over the traces from zero, adds the leaked
  membrane, takes off the threshold times z, and tests the result less the threshold against zero.  Read at a
  cell (b, n): the repeated w at (b, i, n) is w(i, n), so the summand is x(b, i, n) * w(i, n); the sum from zero
  is the sum; and the rest is the specification's membrane and spike word for word.
-/
import proofs.«161404_j13022340841819_1_alg».proof.Proof.Gen.ReferenceIdeal.Read
import proofs.«161404_j13022340841819_1_alg».proof.Proof.Spec

noncomputable section

namespace Cert.Lif.RefValue

open Idealize.ShloMosaic Idealize.ShloMosaic.ValueIdx
open Cert.ReferenceIdeal Cert.ReferenceIdeal.Gen Cert.ReferenceIdeal.Read
open scoped BigOperators

variable (x : (⟨S128x1024x512, .f32⟩ : BufTy).Contents (Elt Ideal)) (w : (⟨S1024x512, .f32⟩ : BufTy).Contents (Elt Ideal))
  (v z : (⟨S128x512, .f32⟩ : BufTy).Contents (Elt Ideal))

/-- The reference's product array at (b, i, n) is x(b, i, n) * w(i, n). -/
theorem product_apply (j : S128x512.Idx) (k : Fin 1024) :
    val_main_v4 (F := Ideal) x w (idx_main_v5 j k) = x (ix3 (j 0) k (j 1)) * w (ix2 k (j 1)) := by
  have e1 : idx_main_v5 j k = ix3 (j 0) k (j 1) :=
    funext fun a => Fin.ext (by match a with | ⟨0, _⟩ => rfl | ⟨1, _⟩ => rfl | ⟨2, _⟩ => rfl)
  have e2 : idx_main_v2 (idx_main_v3 (idx_main_v5 j k)) = ix2 k (j 1) :=
    funext fun a => Fin.ext (by match a with | ⟨0, _⟩ => rfl | ⟨1, _⟩ => rfl)
  rw [val_main_v4_apply, val_main_v3_apply, val_main_v2_apply, e2, e1]
  rfl

/-- The reference's first result is the specification's membrane. -/
theorem membrane_eq : val_main_v9 (F := Ideal) x w v z = membrane x w v z := by
  funext j
  rw [val_main_v9_apply, val_main_v6_apply, val_main_v1_apply, val_main_v0_apply, val_main_cst_apply,
    val_main_v5_apply, val_main_cst_0_apply, val_main_v8_apply, val_main_v7_apply, val_main_cst_1_apply]
  simp only [product_apply]
  show Ideal.ofBits .f32 0x3F7EB852#32 * v j
      + (Ideal.ofBits .f32 0x00000000#32 + ∑ k : Fin 1024, x (ix3 (j 0) k (j 1)) * w (ix2 k (j 1)))
      - Ideal.ofBits .f32 0x40000000#32 * z j = _
  rw [Ideal.ofBits_zero_f32, zero_add]
  rfl

/-- The reference's second result is the specification's spike. -/
theorem spike_eq : val_main_v14 (F := Ideal) x w v z = spike x w v z := by
  funext j
  rw [val_main_v14_apply, val_main_v13_apply, val_main_v11_apply, val_main_v10_apply, val_main_cst_2_apply,
    val_main_v12_apply, val_main_cst_3_apply, membrane_eq]
  rfl

end Cert.Lif.RefValue

end
-- ==== Proof.lean ====
/-
  A leaky integrate-and-fire step, tiled, against its plain formula.

  The kernel walks a 4 by 4 grid: four row groups of 32 batch rows, and for each of them four stretches of
  256 input traces.  It keeps the current gathered so far in a scratch block, cleared at a row group's first
  step, and at the row group's last step writes the new membrane
      leak * v + current - threshold * z
  and the spike (one where the membrane less the threshold is above zero, else zero).  The reference sums
  all 1024 traces at once.  Over the extended reals addition is commutative and associative, so four
  partial sums added in order are the one sum, whatever the inputs: no finiteness of the inputs is used.
  The leak 0.995 and the threshold 2 are the same bit patterns on both sides and are never evaluated;
  the kernel's spike is a one-bit test widened to a word and read signed, the reference's the same bit read
  unsigned, which agree because a bit widened with zeros is not negative.

  The three programs run, fault nowhere and leave their arguments alone; the idealized kernel is the kernel's
  own text read over the extended reals (nothing was rewritten); and from memories that agree on the four
  arguments the idealized kernel and the reference both end with the specification's membrane and spike.
-/
import proofs.«161404_j13022340841819_1_alg».proof.Defs
import proofs.«161404_j13022340841819_1_alg».proof.Proof.Gen.Kernel
import proofs.«161404_j13022340841819_1_alg».proof.Proof.Gen.Kernel.Frame
import proofs.«161404_j13022340841819_1_alg».proof.Proof.Gen.KernelIdeal
import proofs.«161404_j13022340841819_1_alg».proof.Proof.Gen.KernelIdeal.Frame
import proofs.«161404_j13022340841819_1_alg».proof.Proof.Gen.KernelIdeal.Value
import proofs.«161404_j13022340841819_1_alg».proof.Proof.Gen.ReferenceIdeal
import proofs.«161404_j13022340841819_1_alg».proof.Proof.Gen.ReferenceIdeal.Run
import proofs.«161404_j13022340841819_1_alg».proof.Proof.Gen.ReferenceIdeal.Read
import proofs.«161404_j13022340841819_1_alg».proof.Proof.Gen.Pre_finite_inputs
import proofs.«161404_j13022340841819_1_alg».proof.Proof.KernelValue
import proofs.«161404_j13022340841819_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on x, w, v and z, the kernel and the reference both end at the specification's
    membrane and spike of those arrays. -/
theorem algebraic : Cert.algebraic_KernelIdeal_ReferenceIdeal := by
  intro m ρ m' ρ' _ hagree
  refine ⟨fun c => Cert.Lif.KernelValue.membraneOf m c, fun c => Cert.Lif.KernelValue.spikeOf m c,
    Cert.Lif.KernelValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2,
      Cert.ReferenceIdeal.Read.val_main_v9_eq, Cert.Lif.RefValue.membrane_eq]
  · rw [(hagree c).1, (hagree c).2.1, (hagree c).2.2.1, (hagree c).2.2.2,
      Cert.ReferenceIdeal.Read.val_main_v14_eq, Cert.Lif.RefValue.spike_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
